-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x64 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1x1x2048x2048 : Shape := ⟨4, ![1, 1, 2048, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) (main_arg1 : FVec F S2x2048x1024 .f32) (main_arg2 : FVec F S2x2048x1024 .f32) (main_arg3 : IVec S1x1x2048x2048 32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Kernel.lean ====
abbrev S2x2048x1024 : Shape := ⟨3, ![2, 2048, 1024]⟩
abbrev S1x1x2048x2048 : Shape := ⟨4, ![1, 1, 2048, 2048]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x1x512x2048 : Shape := ⟨4, ![1, 1, 512, 2048]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 19
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1x2048x2048, .i32⟩
  | .hbm, ⟨4, _⟩ => ⟨S2x2048x16x64, .f32⟩
  | .hbm, ⟨5, _⟩ => ⟨S2x16x2048x64, .f32⟩
  | .hbm, ⟨6, _⟩ => ⟨S32x2048x64, .f32⟩
  | .hbm, ⟨7, _⟩ => ⟨S2x2048x16x64, .f32⟩
  | .hbm, ⟨8, _⟩ => ⟨S2x16x2048x64, .f32⟩
  | .hbm, ⟨9, _⟩ => ⟨S32x2048x64, .f32⟩
  | .hbm, ⟨10, _⟩ => ⟨S2x2048x16x64, .f32⟩
  | .hbm, ⟨11, _⟩ => ⟨S2x16x2048x64, .f32⟩
  | .hbm, ⟨12, _⟩ => ⟨S32x2048x64, .f32⟩
  | .hbm, ⟨13, _⟩ => ⟨S32x2048x2048, .f32⟩
  | .hbm, ⟨14, _⟩ => ⟨S32x2048x64, .f32⟩
  | .hbm, ⟨15, _⟩ => ⟨S2x16x2048x64, .f32⟩
  | .hbm, ⟨16, _⟩ => ⟨S2x2048x16x64, .f32⟩
  | .hbm, ⟨17, _⟩ => ⟨S2x2048x1024, .f32⟩
  | .hbm, ⟨18, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x512x2048, .f32⟩
  | .local _ .vmem, ⟨9, _⟩ => ⟨S1x512x2048, .f32⟩
  | .local _ .vmem, ⟨10, _⟩ => ⟨S1x512x64, .f32⟩
  | .local _ .vmem, ⟨11, _⟩ => ⟨S1x512x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S1x1x2048x2048.size a
  hwx0_3 : ∀ i : grid0.Coords, EltTy.bits .i32 = 32 ∨ (Rect.block (s := S1x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S32x2048x64.size a
  hwx0_5 : ∀ i : grid0.Coords, EltTy.bits .f32 = 32 ∨ (Rect.block (s := S32x2048x64) S1x512x64.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v2) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S1x1x2048x2048 : Shape := ⟨4, ![1, 1, 2048, 2048]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1x2048x2048, .i32⟩
  | .hbm, ⟨4, _⟩ => ⟨S2x2048x16x64, .f32⟩
  | .hbm, ⟨5, _⟩ => ⟨S2x16x2048x64, .f32⟩
  | .hbm, ⟨6, _⟩ => ⟨S2x2048x16x64, .f32⟩
  | .hbm, ⟨7, _⟩ => ⟨S2x16x2048x64, .f32⟩
  | .hbm, ⟨8, _⟩ => ⟨S2x2048x16x64, .f32⟩
  | .hbm, ⟨9, _⟩ => ⟨S2x16x2048x64, .f32⟩
  | .hbm, ⟨10, _⟩ => ⟨S2x16x2048x2048, .f32⟩
  | .hbm, ⟨11, _⟩ => ⟨S_, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S_, .i32⟩
  | .hbm, ⟨16, _⟩ => ⟨S1x1x2048x2048, .i32⟩
  | .hbm, ⟨17, _⟩ => ⟨S1x1x2048x2048, .i1⟩
  | .hbm, ⟨18, _⟩ => ⟨S_, .f32⟩
  | .hbm, ⟨19, _⟩ => ⟨S2x16x2048x2048, .i1⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S_, .f32⟩
  | .hbm, ⟨25, _⟩ => ⟨S2x16x2048, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x2048x64, .f32⟩
  | .hbm, ⟨37, _⟩ => ⟨S2x2048x16x64, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S1x1x2048x2048 : S_.BroadcastsInDim S1x1x2048x2048 (![] : Fin 0 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  One attention row over the extended reals, as both programs compute it.

  For a query row and the key rows of one head, the masked and scaled score of key `j` is the fill value where the
  mask word is zero and the dot product of the two rows times one eighth elsewhere; the row's softmax subtracts the
  row maximum (folded from minus infinity), exponentiates, and divides by the sum of the exponentials.  The facts
  proved here are the scalar ones that make the two programs' spellings of these the same extended real:
  a sum taken in three passes over a two-term split of real factors is the plain sum, dividing by the square root
  of sixty-four is multiplying by one eighth, and a maximum against minus infinity or a sum started at zero changes nothing.
-/
import Idealize.ShloMosaic.PureOps.Ideal
import Idealize.ShloMosaic.PureOps.Ideal.Laws
import Idealize.ShloMosaic.Lib.ValueIdx

noncomputable section

namespace Cert.Attention

open Idealize.ShloMosaic

/-- An extended real that is a real number. -/
def IsReal (x : EReal) : Prop := x ≠ ⊥ ∧ x ≠ ⊤

/-- The dot product of two rows of sixty-four. -/
def dot64 (a b : Fin 64 → EReal) : EReal := ∑ d : Fin 64, a d * b d

/-- The masked, scaled score: the fill where the mask word is zero, else the dot product times one eighth. -/
def score (a b : Fin 64 → EReal) (w : BitVec 32) : EReal :=
  Scalar.select (IntOp.cmpi .eq w 0#32) (Ideal.ofBits .f32 0xCE6E6B28#32) (dot64 a b * Ideal.ofBits .f32 0x3E000000#32)

/-- The maximum of a row, folded from minus infinity. -/
def rowMax (s : Fin 2048 → EReal) : EReal :=
  (Finset.univ : Finset (Fin 2048)).fold max (Ideal.ofBits .f32 0xFF800000#32) s

/-- The exponential of an entry less the row maximum. -/
def rowExp (s : Fin 2048 → EReal) (j : Fin 2048) : EReal := Ideal.exp (s j - rowMax s)

/-- The row's softmax. -/
def softmax (s : Fin 2048 → EReal) (j : Fin 2048) : EReal := Ideal.div (rowExp s j) (∑ k : Fin 2048, rowExp s k)

/-- The pattern with exponent field 133 and no fraction is two to the sixth. -/
theorem ofBits_sixtyFour : Ideal.ofBits .f32 0x42800000#32 = ((64 : ℝ) : EReal) := by
  simp [Ideal.ofBits, Ideal.ieee, -EReal.coe_mul]
  norm_num

/-- The pattern with exponent field 124 and no fraction is two to the minus third. -/
theorem ofBits_eighth : Ideal.ofBits .f32 0x3E000000#32 = ((1 / 8 : ℝ) : EReal) := by
  simp [Ideal.ofBits, Ideal.ieee, -EReal.coe_mul]
  norm_num

/-- The pattern with the sign set, an all-ones exponent and no fraction is minus infinity. -/
theorem ofBits_negInf : Ideal.ofBits .f32 0xFF800000#32 = (⊥ : EReal) := by
  simp [Ideal.ofBits, Ideal.ieee]

/-- Sixty-four is the square of eight. -/
theorem sqrt_sixtyFour : Real.sqrt 64 = 8 := by
  rw [show (64 : ℝ) = 8 ^ 2 by norm_num]
  exact Real.sqrt_sq (by norm_num)

/-- A real number less itself is zero (at either infinity the difference is not). -/
theorem sub_self_of_real {x : EReal} (hx : IsReal x) : x - x = 0 :=
  EReal.sub_self hx.2 hx.1

/-- A real number less itself is zero, so the residual of the two-term split of a real vanishes, and the two
    cross passes of the three-pass product add nothing. -/
theorem dot64_split (a b : Fin 64 → EReal) (ha : ∀ d, IsReal (a d)) (hb : ∀ d, IsReal (b d)) :
    (∑ d : Fin 64, a d * b d) + (∑ d : Fin 64, a d * (b d - b d)) + (∑ d : Fin 64, (a d - a d) * b d) = dot64 a b := by
  -- each term of the second pass is a factor times zero
  have h1 : (∑ d : Fin 64, a d * (b d - b d)) = 0 :=
    Finset.sum_eq_zero fun d _ => by rw [sub_self_of_real (hb d), mul_zero]
  -- each term of the third pass is zero times a factor
  have h2 : (∑ d : Fin 64, (a d - a d) * b d) = 0 :=
    Finset.sum_eq_zero fun d _ => by rw [sub_self_of_real (ha d), zero_mul]
  rw [h1, h2, add_zero, add_zero, dot64]

/-- The square root of sixty-four is eight, and dividing by eight is multiplying by one eighth. -/
theorem div_sqrt64 (x : EReal) :
    Ideal.div x (Ideal.sqrt (Ideal.ofBits .f32 0x42800000#32)) = x * Ideal.ofBits .f32 0x3E000000#32 := by
  rw [ofBits_sixtyFour, ofBits_eighth, Ideal.sqrt_coe, if_neg (by norm_num), sqrt_sixtyFour,
    Ideal.div_coe (by norm_num) x]

/-- The pattern of minus infinity is the bottom element, so a maximum against it is the other operand. -/
theorem max_negInf (x : EReal) : max (Ideal.ofBits .f32 0xFF800000#32) x = x := by
  rw [ofBits_negInf]
  exact max_eq_right bot_le

/-- The zero pattern is zero. -/
theorem zero_add_ofBits (x : EReal) : Ideal.ofBits .f32 0x00000000#32 + x = x := by
  rw [Ideal.ofBits_zero_f32, zero_add]

end Cert.Attention

end
-- ==== Proof.Finite.lean ====
/-
  From the precondition to real entries: the precondition says, of each float argument array, that every entry's
  absolute value is below plus infinity; an extended real whose absolute value is below plus infinity is neither
  infinity.  Only the query and key arrays are needed.
-/
import proofs.«429580_j65481071398925_3_alg».proof.Defs
import proofs.«429580_j65481071398925_3_alg».proof.Proof.Gen.KernelIdeal
import proofs.«429580_j65481071398925_3_alg».proof.Proof.Gen.Pre_finite_inputs
import proofs.«429580_j65481071398925_3_alg».proof.Proof.Spec
import Idealize.ShloMosaic.Lib.ReduceAll
import Idealize.ShloMosaic.Lib.ValueIdx

noncomputable section

namespace Cert.KernelIdeal.Finite

open Idealize.ShloMosaic Idealize.SL.Sem Cert.KernelIdeal Cert.Attention

/-- The pattern with the sign clear, an all-ones exponent and no fraction is plus infinity. -/
theorem ofBits_posInf : Ideal.ofBits .f32 0x7F800000#32 = (⊤ : EReal) := by
  simp [Ideal.ofBits, Ideal.ieee]

/-- An extended real whose absolute value, the larger of it and its negative, is strictly below plus infinity is a
    real number: at minus infinity the negative is plus infinity, at plus infinity the value itself is, and in
    both cases the strict comparison fails. -/
theorem isReal_of_abs_lt (x : EReal)
    (h : FloatOps.cmpf (F := Ideal) (φ := .f32) .olt (FloatOps.hostAbsf (F := Ideal) (φ := .f32) x)
      (Ideal.ofBits .f32 0x7F800000#32) = 1#1) : IsReal x := by
  rw [Ideal.hostAbsf_def, Ideal.absf_def, Ideal.cmpf_def, ofBits_posInf] at h
  induction x using EReal.rec with
  | bot => simp [Ideal.cmp] at h
  | top => simp [Ideal.cmp] at h
  | coe r => exact ⟨EReal.coe_ne_bot r, EReal.coe_ne_top r⟩

/-- Under the precondition every query entry and every key entry is a real number. -/
theorem real_of_pre (m : (ℓ : Loc nD τ sig) → Buf (Elt Ideal) ℓ) (hpre : Cert.Pre_KernelIdeal m) (c : Dev nD) :
    (∀ i : S2x2048x1024.Idx, IsReal (m ((c.tc : Thread nD τ).loc main_arg0) i))
    ∧ (∀ i : S2x2048x1024.Idx, IsReal (m ((c.tc : Thread nD τ).loc main_arg1) i)) := by
  -- the predicate's one result word is the conjunction of the three arrays' tests
  have h := congrFun (hpre c) ValueIdx.ix0
  dsimp only [Cert.Pre_finite_inputs.fn] at h
  obtain ⟨h01, _⟩ := IntOp.andi_eq_one.1 h
  obtain ⟨h0, h1⟩ := IntOp.andi_eq_one.1 h01
  -- a conjunction over all three axes that is one was one at every entry, and an entry's test is the strict comparison
  haveI : Subsingleton Cert.Pre_finite_inputs.S_.Idx := ⟨fun a b => funext fun d => d.elim0⟩
  exact ⟨fun i => isReal_of_abs_lt _ (Host.reduce_andi_all _ _ _ _ _ h0 i),
    fun i => isReal_of_abs_lt _ (Host.reduce_andi_all _ _ _ _ _ h1 i)⟩

end Cert.KernelIdeal.Finite

end
-- ==== Proof.Prefix.lean ====
/-
  The arrays the region finds.  Before the region the program splits each of the query, key and value arrays into
  heads: a reshape [2, 2048, 1024] → [2, 2048, 16, 64], the transposition of the two middle axes, and a reshape that
  merges batch and head, [2, 16, 2048, 64] → [32, 2048, 64].  The reference performs the same first two steps, so each
  array the region finds is the reference's head-split array with batch and head merged: its entry `(b·16 + h, s, d)`
  is the head-split entry `(b, h, s, d)`.
-/
import proofs.«429580_j65481071398925_3_alg».proof.Proof.Gen.KernelIdeal.Frame
import proofs.«429580_j65481071398925_3_alg».proof.Proof.Gen.ReferenceIdeal.Read
import proofs.«429580_j65481071398925_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Attention

variable (m : (ℓ : Loc nD τ sig) → Buf (Elt Ideal) ℓ)

/-- The argument arrays as launched. -/
abbrev qArg (c : Dev nD) : (⟨S2x2048x1024, .f32⟩ : BufTy).Contents (Elt Ideal) := m ((c : Thread nD τ).loc main_arg0)
abbrev kArg (c : Dev nD) : (⟨S2x2048x1024, .f32⟩ : BufTy).Contents (Elt Ideal) := m ((c : Thread nD τ).loc main_arg1)
abbrev vArg (c : Dev nD) : (⟨S2x2048x1024, .f32⟩ : BufTy).Contents (Elt Ideal) := m ((c : Thread nD τ).loc main_arg2)
abbrev wArg (c : Dev nD) : (⟨S1x1x2048x2048, .i32⟩ : BufTy).Contents (Elt Ideal) := m ((c : Thread nD τ).loc main_arg3)

/-- The head-split query array with batch and head merged is what the region finds as its first operand. -/
theorem V_q (c : Dev nD) : (V m c main_v2 : S32x2048x64.Idx → EReal)
    = shapeCast S32x2048x64 (Cert.ReferenceIdeal.Read.val_main_v1 (F := Ideal) (qArg m c)) shapeCasts_S2x16x2048x64_S32x2048x64 := by
  show StableHlo.after hostOps0 (fun b => m (c, b)) (Proc.devRef .tc main_v2) = _
  after_results
  rfl

theorem V_k (c : Dev nD) : (V m c main_v5 : S32x2048x64.Idx → EReal)
    = shapeCast S32x2048x64 (Cert.ReferenceIdeal.Read.val_main_v3 (F := Ideal) (kArg m c)) shapeCasts_S2x16x2048x64_S32x2048x64 := by
  show StableHlo.after hostOps0 (fun b => m (c, b)) (Proc.devRef .tc main_v5) = _
  after_results
  rfl

theorem V_v (c : Dev nD) : (V m c main_v8 : S32x2048x64.Idx → EReal)
    = shapeCast S32x2048x64 (Cert.ReferenceIdeal.Read.val_main_v5 (F := Ideal) (vArg m c)) shapeCasts_S2x16x2048x64_S32x2048x64 := by
  show StableHlo.after hostOps0 (fun b => m (c, b)) (Proc.devRef .tc main_v8) = _
  after_results
  rfl

/-- Merging batch and head: entry `(p, s, d)` of the merged array is entry `(p / 16, p % 16, s, d)`. -/
theorem merge_apply (x : (⟨S2x16x2048x64, .f32⟩ : BufTy).Contents (Elt Ideal)) (p : Fin 32) (s : Fin 2048) (d : Fin 64) :
    shapeCast S32x2048x64 x shapeCasts_S2x16x2048x64_S32x2048x64 (ix3 p s d)
      = x (ix4 (⟨p.val / 16, by omega⟩ : Fin 2) (⟨p.val % 16, by omega⟩ : Fin 16) s d) := by
  refine shapeCast_apply x _ _ _ ?_
  rw [Shape.rowMajor_val_four, Shape.rowMajor_val_three]
  show ((p.val / 16 * 16 + p.val % 16) * 2048 + s.val) * 64 + d.val = (p.val * 2048 + s.val) * 64 + d.val
  omega

/-- The head-split arrays have real entries when the arguments do. -/
theorem real_split1 (x : (⟨S2x2048x1024, .f32⟩ : BufTy).Contents (Elt Ideal)) (hx : ∀ i, IsReal (x i)) (i) :
    IsReal (Cert.ReferenceIdeal.Read.val_main_v1 (F := Ideal) x i) := by
  rw [Cert.ReferenceIdeal.Read.val_main_v1_apply, Cert.ReferenceIdeal.Read.val_main_v0_apply]; exact hx _

theorem real_split3 (x : (⟨S2x2048x1024, .f32⟩ : BufTy).Contents (Elt Ideal)) (hx : ∀ i, IsReal (x i)) (i) :
    IsReal (Cert.ReferenceIdeal.Read.val_main_v3 (F := Ideal) x i) := by
  rw [Cert.ReferenceIdeal.Read.val_main_v3_apply, Cert.ReferenceIdeal.Read.val_main_v2_apply]; exact hx _

end Cert.KernelIdeal.Arr

end
-- ==== Proof.KernelBlock.lean ====
/-
  The kernel body's stored values read at an index, at the ideal instance.

  The body keeps, for the attention window, row `r` of the softmax of the masked, scaled scores of query row `r`
  against every key row; and for the output window, row `r` of that matrix times the value rows.  Each key and query
  entry is split in two terms, the second the entry less itself, and the score matrix is accumulated in three passes;
  on real entries the second terms are zero and the three passes add to the plain dot product.
-/
import proofs.«429580_j65481071398925_3_alg».proof.Proof.Gen.KernelIdeal.Skeleton
import proofs.«429580_j65481071398925_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.Attention

/-- The value rows, with the block's leading unit axis dropped. -/
theorem pay3_apply (x2 : Vec Ideal S1x2048x64 .f32) (j : Fin 2048) (d : Fin 64) :
    k0_pay3 (F := Ideal) x2 (ix2 j d) = x2 (ix3 (0 : Fin 1) j d) := by
  unfold k0_pay3
  exact shapeCast_1ab_ab_apply x2 _ j d

/-- The attention block as stored: the softmax matrix with a leading unit axis added. -/
theorem pay1_apply (p : FVec Ideal S512x2048 .f32) (r : Fin 512) (j : Fin 2048) :
    k0_pay1 (F := Ideal) p (ix3 (0 : Fin 1) r j) = p (ix2 r j) := by
  unfold k0_pay1
  exact shapeCast_ab_1ab_apply p _ 0 r j

/-! The query-key product: rows of the left operand against rows of the right.  At output index `i` and contraction
    index `q` the left operand is read at `(i 0, q)` and the right at `(i 1, q)`: one lemma per coordinate. -/

theorem qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Entry `(r, j)` of the product into a zero accumulator is the dot product of row `r` of the left operand and
    row `j` of the right. -/
theorem qk_apply {φ₁ φ₂ : FTy} (a : FVec Ideal S512x64 φ₁) (b : FVec Ideal S2048x64 φ₂) (r : Fin 512) (j : Fin 2048) :
    matmul dot_S512x64_S2048x64_S512x2048_1_1_0_0_n_n none a b (constant (F := Ideal) S512x2048 .f32 0x00000000#32) (ix2 r j)
      = ∑ d : Fin 64, a (ix2 r d) * b (ix2 j d) := by
  refine (Ideal.matmul_constant_zero_apply dot_S512x64_S2048x64_S512x2048_1_1_0_0_n_n none a b (ix2 r j)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r j) ((contrEquiv1 dot_S512x64_S2048x64_S512x2048_1_1_0_0_n_n 64 rfl rfl).symm k) = ix2 r k := funext fun ax => Fin.ext (by
    match ax with
    | ⟨0, _⟩ => exact qk_lhs_0 _ _
    | ⟨1, _⟩ => exact (qk_lhs_1 _ _).trans hk)
  have er : dot_S512x64_S2048x64_S512x2048_1_1_0_0_n_n.rhsIdx (ix2 r j) ((contrEquiv1 dot_S512x64_S2048x64_S512x2048_1_1_0_0_n_n 64 rfl rfl).symm k) = ix2 j k := funext fun ax => Fin.ext (by
    match ax with
    | ⟨0, _⟩ => exact qk_rhs_0 _ _
    | ⟨1, _⟩ => exact (qk_rhs_1 _ _).trans hk)
  rw [el, er]

/-! The softmax of the block's rows. -/

section Layout
variable {α : Type}

/-- The mask block with its two leading unit axes dropped reads `(0, 0, r, j)` at `(r, j)`. -/
theorem mask_apply (x : S1x1x512x2048.Idx → α) (r : Fin 512) (j : Fin 2048) :
    shapeCast S512x2048 x shapeCasts_S1x1x512x2048_S512x2048 (ix2 r j) = x (ix4 (0 : Fin 1) (0 : Fin 1) r j) :=
  shapeCast_apply x _ _ _ (by
    rw [Shape.rowMajor_val_four, Shape.rowMajor_val_two]
    show ((0 * 1 + 0) * 512 + r.val) * 2048 + j.val = r.val * 2048 + j.val
    omega)

/-- A vector of row statistics written as a column reads, at `(r, 0)`, the statistic of row `r`. -/
theorem column_apply (c : S512.Idx → α) (r : Fin 512) (u : Fin 1) :
    shapeCast S512x1 c shapeCasts_S512_S512x1 (ix2 r u) = c (ix1 r) :=
  shapeCast_apply c _ _ _ (by
    have hu : u.val = 0 := by omega
    rw [Shape.rowMajor_val_one, Shape.rowMajor_val_two]
    show r.val = r.val * 1 + u.val
    omega)

/-- A column broadcast along the rows reads, at `(r, j)`, the column at `(r, 0)`. -/
theorem alongRow_apply (c : S512x1.Idx → α) (r : Fin 512) (j : Fin 2048) :
    broadcastTo S512x2048 c broadcasts_S512x1_S512x2048 (ix2 r j) = c (ix2 r (0 : Fin 1)) := by
  refine broadcastTo_apply c _ (ix2 r j) (ix2 r (0 : Fin 1)) fun ax => ?_
  match ax with
  | ⟨0, _⟩ => show r.val = if (512 : Nat) = 1 then 0 else r.val; rw [if_neg (by decide)]
  | ⟨1, _⟩ => show (0 : Nat) = if (1 : Nat) = 1 then 0 else j.val; rw [if_pos rfl]

/-- A row statistic kept as a column and broadcast back over the block is, at `(r, j)`, the statistic of row `r`. -/
theorem keepdims_apply (c : S512.Idx → α) (r : Fin 512) (j : Fin 2048) :
    broadcastTo S512x2048 (shapeCast S512x1 c shapeCasts_S512_S512x1) broadcasts_S512x1_S512x2048 (ix2 r j) = c (ix1 r) :=
  (alongRow_apply _ r j).trans (column_apply c r 0)

end Layout

/-- The index of the block over row `r` with `k` put on the reduced axis is `(r, k)`. -/
theorem lift_row (r : Fin 512) (k : Fin 2048) : reduces_S512x2048_S512.lift (ix1 r) k = ix2 r k :=
  funext fun ax => Fin.ext (by match ax with | ⟨0, _⟩ => rfl | ⟨1, _⟩ => rfl)

/-- The maximum over the keys, folded from minus infinity, at row `r`. -/
theorem rowMax_apply (s : FVec Ideal S512x2048 .f32) (r : Fin 512) :
    multiReduction .maximumf [1] S512 s 0xFF800000#32 reduces_S512x2048_S512 (.inl rfl) rfl (ix1 r)
      = rowMax (fun k => s (ix2 r k)) := by
  refine (Ideal.multiReduction_maximumf_single s 0xFF800000#32 reduces_S512x2048_S512 (.inl rfl) rfl (ix1 r)).trans ?_
  have e : s ∘ reduces_S512x2048_S512.lift (ix1 r) = fun k : Fin 2048 => s (ix2 r k) :=
    funext fun k => congrArg s (lift_row r k)
  exact congrArg (fun f : Fin 2048 → EReal => Finset.fold max (Ideal.ofBits .f32 0xFF800000#32) f Finset.univ) e

/-- The sum over the keys at row `r`. -/
theorem rowSum_apply (s : FVec Ideal S512x2048 .f32) (r : Fin 512) :
    multiReduction .add [1] S512 s 0x00000000#32 reduces_S512x2048_S512 (.inl rfl) rfl (ix1 r)
      = ∑ k : Fin 2048, s (ix2 r k) := by
  refine (Ideal.multiReduction_add_single s 0x00000000#32 reduces_S512x2048_S512 (.inl rfl) rfl (ix1 r)).trans ?_
  exact Finset.sum_congr rfl fun k _ => congrArg s (lift_row r k)

/-- The exponentials of a block's entries less their row maxima: entry `(r, j)`. -/
theorem expBlock_apply (s : FVec Ideal S512x2048 .f32) (r : Fin 512) (j : Fin 2048) :
    exp (subf s (broadcastTo S512x2048 (shapeCast S512x1
        (multiReduction .maximumf [1] S512 s 0xFF800000#32 reduces_S512x2048_S512 (.inl rfl) rfl) shapeCasts_S512_S512x1)
        broadcasts_S512x1_S512x2048)) (ix2 r j)
      = rowExp (fun k => s (ix2 r k)) j := by
  show Ideal.exp (s (ix2 r j) - broadcastTo S512x2048 (shapeCast S512x1
        (multiReduction .maximumf [1] S512 s 0xFF800000#32 reduces_S512x2048_S512 (.inl rfl) rfl) shapeCasts_S512_S512x1)
        broadcasts_S512x1_S512x2048 (ix2 r j)) = _
  rw [keepdims_apply, rowMax_apply]
  rfl

/-- Entry `(r, j)` of the exponentials divided by their row sums is the softmax of row `r` at `j`. -/
theorem softmaxBlock_apply (s : FVec Ideal S512x2048 .f32) (r : Fin 512) (j : Fin 2048) :
    divf
      (exp (subf s (broadcastTo S512x2048 (shapeCast S512x1
        (multiReduction .maximumf [1] S512 s 0xFF800000#32 reduces_S512x2048_S512 (.inl rfl) rfl) shapeCasts_S512_S512x1)
        broadcasts_S512x1_S512x2048)))
      (broadcastTo S512x2048 (shapeCast S512x1
        (multiReduction .add [1] S512
          (exp (subf s (broadcastTo S512x2048 (shapeCast S512x1
            (multiReduction .maximumf [1] S512 s 0xFF800000#32 reduces_S512x2048_S512 (.inl rfl) rfl) shapeCasts_S512_S512x1)
            broadcasts_S512x1_S512x2048)))
          0x00000000#32 reduces_S512x2048_S512 (.inl rfl) rfl) shapeCasts_S512_S512x1)
        broadcasts_S512x1_S512x2048)
      (ix2 r j)
      = softmax (fun k => s (ix2 r k)) j := by
  refine (divf_apply _ _ (ix2 r j)).trans ?_
  rw [keepdims_apply, rowSum_apply, expBlock_apply]
  unfold softmax
  exact congrArg (Ideal.div _) (Finset.sum_congr rfl fun k _ => expBlock_apply s r k)

/-- The masked, scaled score block from the query rows `q`, the key rows `k` and the mask words `w`: each operand is
    split into itself and its residual, the product is taken in three passes, and on real entries the passes add to the
    plain dot product of the two rows. -/
theorem scoreBlock_apply (q : FVec Ideal S512x64 .f32) (k : FVec Ideal S2048x64 .f32) (w : IVec S512x2048 32)
    (hq : ∀ i, IsReal (q i)) (hk : ∀ i, IsReal (k i)) (r : Fin 512) (j : Fin 2048) :
    select (cmpi .eq w (broadcast S512x2048 (0#32 : BitVec 32)))
      (broadcast S512x2048 (Scalar.ofBits (F := Ideal) .f32 0xCE6E6B28#32))
      (mulf
        (addf
          (addf
            (matmul dot_S512x64_S2048x64_S512x2048_1_1_0_0_n_n none (truncf .bf16 q bitsLt_bf16_f32) (truncf .bf16 k bitsLt_bf16_f32)
              (constant (F := Ideal) S512x2048 .f32 0x00000000#32))
            (matmul dot_S512x64_S2048x64_S512x2048_1_1_0_0_n_n none (truncf .bf16 q bitsLt_bf16_f32)
              (truncf .bf16 (subf k k) bitsLt_bf16_f32) (constant (F := Ideal) S512x2048 .f32 0x00000000#32)))
          (matmul dot_S512x64_S2048x64_S512x2048_1_1_0_0_n_n none (truncf .bf16 (subf q q) bitsLt_bf16_f32)
            (truncf .bf16 k bitsLt_bf16_f32) (constant (F := Ideal) S512x2048 .f32 0x00000000#32)))
        (broadcast S512x2048 (Scalar.ofBits (F := Ideal) .f32 0x3E000000#32)))
      (ix2 r j)
      = score (fun d => q (ix2 r d)) (fun d => k (ix2 j d)) (w (ix2 r j)) := by
  refine (select_apply _ _ _ (ix2 r j)).trans ?_
  unfold score
  refine congrArg (Scalar.select _ _) ?_
  refine (mulf_apply _ _ (ix2 r j)).trans ?_
  refine congrArg (· * _) ?_
  refine (addf_apply _ _ (ix2 r j)).trans ?_
  rw [addf_apply, qk_apply, qk_apply, qk_apply]
  exact dot64_split (fun d => q (ix2 r d)) (fun d => k (ix2 j d)) (fun d => hq _) (fun d => hk _)

/-- The softmax matrix of the block: entry `(r, j)` is the softmax, over the keys, of the masked scaled scores of
    query row `r`, when the query and key entries are real. -/
theorem pay4_apply (x0 : Vec Ideal S1x512x64 .f32) (x1 : Vec Ideal S1x2048x64 .f32) (x3 : Vec Ideal S1x1x512x2048 .i32)
    (h0 : ∀ i, IsReal (x0 i)) (h1 : ∀ i, IsReal (x1 i)) (r : Fin 512) (j : Fin 2048) :
    k0_pay4 (F := Ideal) x0 x1 x3 (ix2 r j)
      = softmax (fun j' => score (fun d => x0 (ix3 (0 : Fin 1) r d)) (fun d => x1 (ix3 (0 : Fin 1) j' d))
          (x3 (ix4 (0 : Fin 1) (0 : Fin 1) r j'))) j := by
  unfold k0_pay4
  refine (softmaxBlock_apply _ r j).trans ?_
  refine congrArg (fun s => softmax s j) (funext fun j' => ?_)
  refine (scoreBlock_apply (shapeCast S512x64 x0 shapeCasts_S1x512x64_S512x64)
    (shapeCast S2048x64 x1 shapeCasts_S1x2048x64_S2048x64) _ (fun i => h0 _) (fun i => h1 _) r j').trans ?_
  have eq : (fun d => shapeCast S512x64 x0 shapeCasts_S1x512x64_S512x64 (ix2 r d)) = fun d => x0 (ix3 (0 : Fin 1) r d) :=
    funext fun d => shapeCast_1ab_ab_apply x0 _ r d
  have ek : (fun d => shapeCast S2048x64 x1 shapeCasts_S1x2048x64_S2048x64 (ix2 j' d)) = fun d => x1 (ix3 (0 : Fin 1) j' d) :=
    funext fun d => shapeCast_1ab_ab_apply x1 _ j' d
  exact congr (congr (congrArg score eq) ek) (mask_apply x3 r j')

/-! The attention-value product: rows of the left operand against columns of the right.  At output index `i` and
    contraction index `q` the left operand is read at `(i 0, q)` and the right at `(q, i 1)`: one lemma per coordinate. -/

theorem av_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem av_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem av_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem av_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry `(r, d)` of the product into a zero accumulator is the sum over `j` of the left operand at `(r, j)`
    times the right at `(j, d)`. -/
theorem av_apply {φ₁ φ₂ : FTy} (a : FVec Ideal S512x2048 φ₁) (b : FVec Ideal S2048x64 φ₂) (r : Fin 512) (d : Fin 64) :
    matmul dot_S512x2048_S2048x64_S512x64_1_0_0_1_n_n none a b (constant (F := Ideal) S512x64 .f32 0x00000000#32) (ix2 r d)
      = ∑ j : Fin 2048, a (ix2 r j) * b (ix2 j d) := by
  refine (Ideal.matmul_constant_zero_apply dot_S512x2048_S2048x64_S512x64_1_0_0_1_n_n none a b (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun ax => Fin.ext (by
    match ax with
    | ⟨0, _⟩ => exact av_lhs_0 _ _
    | ⟨1, _⟩ => exact (av_lhs_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun ax => Fin.ext (by
    match ax with
    | ⟨0, _⟩ => exact (av_rhs_0 _ _).trans hk
    | ⟨1, _⟩ => exact av_rhs_1 _ _)
  rw [el, er]

/-- The output block as stored: entry `(r, d)` is the sum over the keys of the attention row times the value column. -/
theorem pay2_apply (v : FVec Ideal S2048x64 .f32) (p : FVec Ideal S512x2048 .f32) (r : Fin 512) (d : Fin 64) :
    k0_pay2 (F := Ideal) v p (ix3 (0 : Fin 1) r d) = ∑ j : Fin 2048, p (ix2 r j) * v (ix2 j d) := by
  unfold k0_pay2
  refine (shapeCast_ab_1ab_apply _ _ 0 r d).trans ?_
  exact av_apply _ _ r d

end Cert.KernelIdeal.Block

end
-- ==== Proof.RefRows.lean ====
/-
  The reference's attention matrix and its product with the values, read at an index, at the ideal instance.

  Entry `(b, h, i, j)` of the attention matrix is the softmax, over the keys `j`, of the masked scaled scores of query
  `(b, h, i)`: the reference divides the dot product by the square root of sixty-four, takes a maximum against minus
  infinity once more than needed and starts its sum at zero, none of which changes the value.  Entry `(b, h, i, d)` of
  the product is the sum over the keys of the attention row times the value column.
-/
import proofs.«429580_j65481071398925_3_alg».proof.Proof.Gen.ReferenceIdeal.Read
import proofs.«429580_j65481071398925_3_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Rows

open Idealize.ShloMosaic Idealize.ShloMosaic.ValueIdx Cert.ReferenceIdeal Cert.ReferenceIdeal.Gen Cert.ReferenceIdeal.Read Cert.Attention

/-! ## The index maps at an index given by its coordinates

Each layout step of the reference reads its operand at an index computed from the result's; at `(b, h, i, j)` these
are again indices given by coordinates. -/

/-- The mask is shared by every batch and head: entry `(b, h, i, j)` reads mask entry `(0, 0, i, j)`. -/
theorem idx_where (b : Fin 2) (h : Fin 16) (i j : Fin 2048) :
    idx_main_call0_v0 (ix4 b h i j) = ix4 (0 : Fin 1) (0 : Fin 1) i j :=
  funext fun a => Fin.ext (by match a with | ⟨0, _⟩ => rfl | ⟨1, _⟩ => rfl | ⟨2, _⟩ => rfl | ⟨3, _⟩ => rfl)

/-- Term `d` of the dot product for entry `(b, h, i, j)` takes the query at `(b, h, i, d)` … -/
theorem lidx_dot (b : Fin 2) (h : Fin 16) (i j : Fin 2048) (d : Fin 64) :
    lidx_main_v6 (ix4 b h i j) d = ix4 b h i d :=
  funext fun a => Fin.ext (by match a with | ⟨0, _⟩ => rfl | ⟨1, _⟩ => rfl | ⟨2, _⟩ => rfl | ⟨3, _⟩ => rfl)

/-- … and the key at `(b, h, j, d)`. -/
theorem ridx_dot (b : Fin 2) (h : Fin 16) (i j : Fin 2048) (d : Fin 64) :
    ridx_main_v6 (ix4 b h i j) d = ix4 b h j d :=
  funext fun a => Fin.ext (by match a with | ⟨0, _⟩ => rfl | ⟨1, _⟩ => rfl | ⟨2, _⟩ => rfl | ⟨3, _⟩ => rfl)

/-- The row maximum broadcast back over the keys: entry `(b, h, i, j)` reads the maximum of row `(b, h, i)`. -/
theorem idx_max (b : Fin 2) (h : Fin 16) (i j : Fin 2048) :
    idx_main_v16 (idx_main_v17 (ix4 b h i j)) = ix3 b h i :=
  funext fun a => Fin.ext (by match a with | ⟨0, _⟩ => rfl | ⟨1, _⟩ => rfl | ⟨2, _⟩ => rfl)

/-- The row sum broadcast back over the keys: term `j'` of the sum read at `(b, h, i, j)` is entry `(b, h, i, j')`. -/
theorem idx_sum (b : Fin 2) (h : Fin 16) (i j j' : Fin 2048) :
    idx_main_v20 (idx_main_v21 (idx_main_v22 (ix4 b h i j))) j' = ix4 b h i j' :=
  funext fun a => Fin.ext (by match a with | ⟨0, _⟩ => rfl | ⟨1, _⟩ => rfl | ⟨2, _⟩ => rfl | ⟨3, _⟩ => rfl)

/-- Term `j` of the product's sum for entry `(b, h, i, d)` takes the attention matrix at `(b, h, i, j)` … -/
theorem lidx_out (b : Fin 2) (h : Fin 16) (i : Fin 2048) (d : Fin 64) (j : Fin 2048) :
    lidx_main_v24 (ix4 b h i d) j = ix4 b h i j :=
  funext fun a => Fin.ext (by match a with | ⟨0, _⟩ => rfl | ⟨1, _⟩ => rfl | ⟨2, _⟩ => rfl | ⟨3, _⟩ => rfl)

/-- … and the values at `(b, h, j, d)`. -/
theorem ridx_out (b : Fin 2) (h : Fin 16) (i : Fin 2048) (d : Fin 64) (j : Fin 2048) :
    ridx_main_v24 (ix4 b h i d) j = ix4 b h j d :=
  funext fun a => Fin.ext (by match a with | ⟨0, _⟩ => rfl | ⟨1, _⟩ => rfl | ⟨2, _⟩ => rfl | ⟨3, _⟩ => rfl)

/-! ## The masked scaled scores, the row maximum, the exponentials -/

/-- Entry `(b, h, i, j)` of the masked scores: the fill where the mask word at `(0, 0, i, j)` is zero, else the dot
    product of query row `(b, h, i)` and key row `(b, h, j)` divided by the square root of sixty-four, which is
    the dot product times one eighth. -/
theorem score_apply (q k : (⟨S2x2048x1024, .f32⟩ : BufTy).Contents (Elt Ideal)) (w : (⟨S1x1x2048x2048, .i32⟩ : BufTy).Contents (Elt Ideal))
    (b : Fin 2) (h : Fin 16) (i j : Fin 2048) :
    val_main_v12 (F := Ideal) q k w (ix4 b h i j)
      = score (fun d => val_main_v1 (F := Ideal) q (ix4 b h i d)) (fun d => val_main_v3 (F := Ideal) k (ix4 b h j d))
          (w (ix4 (0 : Fin 1) (0 : Fin 1) i j)) := by
  rw [val_main_v12_apply, val_main_call0_v0_apply, val_main_v11_apply, val_main_v10_apply, val_main_c_apply,
    val_main_call0_v1_apply, val_main_cst_0_apply, val_main_v9_apply, val_main_v6_apply, val_main_v8_apply,
    val_main_v7_apply, val_main_cst_apply, idx_where]
  simp only [lidx_dot, ridx_dot]
  rw [Ideal.hostDivf_def, Ideal.hostUnary_sqrt_def, Ideal.ofBits_def, Ideal.ofBits_def, div_sqrt64]
  rfl

/-- The reduction over the keys at `(b, h, i)` is the fold of the maximum, from minus infinity, over row `(b, h, i)`
    of the masked scores: the maximum is commutative and associative, so the fold over the indices that drop to
    `(b, h, i)` is the fold over the key coordinate, and `(b, h, i)` with the coordinate `j'` inserted last is
    `(b, h, i, j')`. -/
theorem rowMax_apply (q k : (⟨S2x2048x1024, .f32⟩ : BufTy).Contents (Elt Ideal)) (w : (⟨S1x1x2048x2048, .i32⟩ : BufTy).Contents (Elt Ideal))
    (b : Fin 2) (h : Fin 16) (i : Fin 2048) :
    val_main_v13 (F := Ideal) q k w (ix3 b h i)
      = rowMax (fun j' => val_main_v12 (F := Ideal) q k w (ix4 b h i j')) := by
  unfold val_main_v13
  rw [Host.reduce_eq_fold_single FloatOps.maximumf _ _ reducesTo_S2x16x2048x2048_S2x16x2048_d3 (by decide) h_S_ (ix3 b h i)]
  have e : (val_main_v12 (F := Ideal) q k w ∘ Shape.Reduces.lift (s := S2x16x2048x2048) (a := 3) (t := S2x16x2048) (by decide) (ix3 b h i))
      = fun j' : Fin 2048 => val_main_v12 (F := Ideal) q k w (ix4 b h i j') :=
    funext fun j' => congrArg (val_main_v12 (F := Ideal) q k w)
      (funext fun a => Fin.ext (by match a with | ⟨0, _⟩ => rfl | ⟨1, _⟩ => rfl | ⟨2, _⟩ => rfl | ⟨3, _⟩ => rfl))
  rw [e, val_main_cst_1_apply, Ideal.ofBits_def]
  rfl

/-- Entry `(b, h, i, j)` of the exponentials: the exponential of the score less the row's maximum; the second
    maximum, against minus infinity, is the row maximum itself. -/
theorem exp_apply (q k : (⟨S2x2048x1024, .f32⟩ : BufTy).Contents (Elt Ideal)) (w : (⟨S1x1x2048x2048, .i32⟩ : BufTy).Contents (Elt Ideal))
    (b : Fin 2) (h : Fin 16) (i j : Fin 2048) :
    val_main_v19 (F := Ideal) q k w (ix4 b h i j)
      = rowExp (fun j' => score (fun d => val_main_v1 (F := Ideal) q (ix4 b h i d)) (fun d => val_main_v3 (F := Ideal) k (ix4 b h j' d))
          (w (ix4 (0 : Fin 1) (0 : Fin 1) i j'))) j := by
  rw [val_main_v19_apply, val_main_v18_apply, val_main_v17_apply, val_main_v16_apply, val_main_v15_apply,
    val_main_v14_apply, val_main_cst_2_apply, idx_max, rowMax_apply]
  simp only [score_apply]
  rw [Ideal.hostUnary_exp_def, Ideal.subf_def, Ideal.maximumf_def, Ideal.ofBits_def, max_negInf]
  rfl

/-! ## The two statements -/

/-- The attention matrix at an index: the softmax over the keys of the masked scaled scores, over the head-split
    query and key arrays. -/
theorem attn_apply (q k : (⟨S2x2048x1024, .f32⟩ : BufTy).Contents (Elt Ideal)) (w : (⟨S1x1x2048x2048, .i32⟩ : BufTy).Contents (Elt Ideal))
    (b : Fin 2) (h : Fin 16) (i j : Fin 2048) :
    val_main_v23 (F := Ideal) q k w (ix4 b h i j)
      = softmax (fun j' => score (fun d => val_main_v1 (F := Ideal) q (ix4 b h i d)) (fun d => val_main_v3 (F := Ideal) k (ix4 b h j' d))
          (w (ix4 (0 : Fin 1) (0 : Fin 1) i j'))) j := by
  rw [val_main_v23_apply, val_main_v22_apply, val_main_v21_apply, val_main_v20_apply, val_main_cst_3_apply]
  simp only [idx_sum, exp_apply]
  rw [Ideal.hostDivf_def, Ideal.ofBits_def, zero_add_ofBits]
  rfl

/-- The product with the values at an index: the sum over the keys of the attention row times the value column. -/
theorem out_apply (q k v : (⟨S2x2048x1024, .f32⟩ : BufTy).Contents (Elt Ideal)) (w : (⟨S1x1x2048x2048, .i32⟩ : BufTy).Contents (Elt Ideal))
    (b : Fin 2) (h : Fin 16) (i : Fin 2048) (d : Fin 64) :
    val_main_v24 (F := Ideal) q k v w (ix4 b h i d)
      = ∑ j : Fin 2048, val_main_v23 (F := Ideal) q k w (ix4 b h i j) * val_main_v5 (F := Ideal) v (ix4 b h j d) := by
  rw [val_main_v24_apply]
  simp only [lidx_out, ridx_out]

end Cert.ReferenceIdeal.Rows

end
-- ==== Proof.Blocks.lean ====
/-
  From blocks to arrays.  At grid point `t` the body's blocks sit at one head `p` (batch and head merged) and one
  query tile `u`: the query block is rows `u·512 …` of head `p`, the key and value blocks are all of head `p`,
  the mask block is rows `u·512 …` of the mask.  So the attention block the point writes back is the block at
  `(p, u)` of ONE array, the reference's attention matrix with batch and head merged, and the output block likewise
  of the reference's attention-times-values array; the blocks tile both arrays, so after the region the two arrays
  hold exactly those.
-/
import proofs.«429580_j65481071398925_3_alg».proof.Proof.Prefix
import proofs.«429580_j65481071398925_3_alg».proof.Proof.KernelBlock
import proofs.«429580_j65481071398925_3_alg».proof.Proof.RefRows

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Attention Cert.KernelIdeal.Block
open Idealize.ShloMosaic.Pipeline (Dat)

variable (m : (ℓ : Loc nD τ sig) → Buf (Elt Ideal) ℓ)

/-! ## The index maps -/

/-- The printed index maps, decided over the grid: at every point the query, attention and output blocks sit at
    (head, query tile), the key and value blocks at the head, the mask block at the query tile. -/
theorem idx_facts : ∀ t : Fin cfg0.N,
    win0_4.index t (0 : Fin 3) < 32 ∧ win0_4.index t (1 : Fin 3) < 4 ∧ win0_4.index t (2 : Fin 3) = 0
    ∧ win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 4) = 0 ∧ win0_3.index t (1 : Fin 4) = 0 ∧ win0_3.index t (2 : Fin 4) = win0_4.index t (1 : Fin 3) ∧ win0_3.index t (3 : Fin 4) = 0
    ∧ win0_5.index t (0 : Fin 3) = win0_4.index t (0 : Fin 3) ∧ win0_5.index t (1 : Fin 3) = win0_4.index t (1 : Fin 3) ∧ win0_5.index t (2 : Fin 3) = 0 :=
  (by decide +kernel : ∀ t : Fin grid0.N, _)

/-- Every (head, query tile) pair is some point's. -/
theorem idx_onto : ∀ (p : Fin 32) (u : Fin 4), ∃ t : Fin cfg0.N, win0_4.index t (0 : Fin 3) = p.val ∧ win0_4.index t (1 : Fin 3) = u.val :=
  (by decide +kernel : ∀ (p : Fin 32) (u : Fin 4), ∃ t : Fin grid0.N, win0_4.index t (0 : Fin 3) = p.val ∧ win0_4.index t (1 : Fin 3) = u.val)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The head (batch and head merged) of point `t`'s blocks, and the array row of row `r` of its query tile. -/
def hd (t : Fin cfg0.N) : Fin 32 := ⟨win0_4.index t (0 : Fin 3), (idx_facts t).1⟩
def row (t : Fin cfg0.N) (r : Fin 512) : Fin 2048 := ⟨win0_4.index t (1 : Fin 3) * 512 + r.val, by have := (idx_facts t).2.1; omega⟩

/-- Batch and head of a merged head. -/
def bat (p : Fin 32) : Fin 2 := ⟨p.val / 16, by omega⟩
def hea (p : Fin 32) : Fin 16 := ⟨p.val % 16, by omega⟩

/-! ## The arrays the region finds, at an index -/

theorem Vq_apply (c : Dev nD) (p : Fin 32) (s : Fin 2048) (d : Fin 64) :
    (V m c main_v2 : S32x2048x64.Idx → EReal) (ix3 p s d) = Cert.ReferenceIdeal.Read.val_main_v1 (F := Ideal) (qArg m c) (ix4 (bat p) (hea p) s d) := by
  rw [V_q]; exact merge_apply _ p s d
theorem Vk_apply (c : Dev nD) (p : Fin 32) (s : Fin 2048) (d : Fin 64) :
    (V m c main_v5 : S32x2048x64.Idx → EReal) (ix3 p s d) = Cert.ReferenceIdeal.Read.val_main_v3 (F := Ideal) (kArg m c) (ix4 (bat p) (hea p) s d) := by
  rw [V_k]; exact merge_apply _ p s d
theorem Vv_apply (c : Dev nD) (p : Fin 32) (s : Fin 2048) (d : Fin 64) :
    (V m c main_v8 : S32x2048x64.Idx → EReal) (ix3 p s d) = Cert.ReferenceIdeal.Read.val_main_v5 (F := Ideal) (vArg m c) (ix4 (bat p) (hea p) s d) := by
  rw [V_v]; exact merge_apply _ p s d

theorem real_Vq (c : Dev nD) (hq : ∀ i, IsReal (qArg m c i)) (i : S32x2048x64.Idx) : IsReal ((V m c main_v2 : S32x2048x64.Idx → EReal) i) := by
  rw [V_q]; unfold shapeCast; exact real_split1 _ hq _
theorem real_Vk (c : Dev nD) (hk : ∀ i, IsReal (kArg m c i)) (i : S32x2048x64.Idx) : IsReal ((V m c main_v5 : S32x2048x64.Idx → EReal) i) := by
  rw [V_k]; unfold shapeCast; exact real_split3 _ hk _

/-! ## The blocks the body loads -/

/-- The blocks the body loads at point `t`, at their literal types. -/
abbrev qblk (c : Dev nD) (t : Fin cfg0.N) : Vec Ideal S1x512x64 .f32 := iblk m c 0 t
abbrev kblk (c : Dev nD) (t : Fin cfg0.N) : Vec Ideal S1x2048x64 .f32 := iblk m c 1 t
abbrev vblk (c : Dev nD) (t : Fin cfg0.N) : Vec Ideal S1x2048x64 .f32 := iblk m c 2 t
abbrev wblk (c : Dev nD) (t : Fin cfg0.N) : Vec Ideal S1x1x512x2048 .i32 := iblk m c 3 t

/-- Each block is its array read at the block's place. -/
theorem qblk_apply (c : Dev nD) (t : Fin cfg0.N) (r : Fin 512) (d : Fin 64) :
    qblk m c t (ix3 (0 : Fin 1) r d) = (V m c main_v2 : S32x2048x64.Idx → EReal) (ix3 (hd t) (row t r) d) := by
  obtain ⟨-, -, -, e0, e1, e2, -⟩ := idx_facts t
  show V m c main_v2 (((cfg0.win 0).blk t).view.emb (ix3 (0 : Fin 1) r d)) = V m c main_v2 (ix3 (hd t) (row t r) d)
  refine congrArg (V m c main_v2) (funext fun a => Fin.ext ?_)
  match a with
  | ⟨0, _⟩ => show win0_0.index t (0 : Fin 3) * 1 + 1 * 0 = win0_4.index t (0 : Fin 3); omega
  | ⟨1, _⟩ => show win0_0.index t (1 : Fin 3) * 512 + 1 * r.val = win0_4.index t (1 : Fin 3) * 512 + r.val; omega
  | ⟨2, _⟩ => show win0_0.index t (2 : Fin 3) * 64 + 1 * d.val = d.val; omega

theorem kblk_apply (c : Dev nD) (t : Fin cfg0.N) (j : Fin 2048) (d : Fin 64) :
    kblk m c t (ix3 (0 : Fin 1) j d) = (V m c main_v5 : S32x2048x64.Idx → EReal) (ix3 (hd t) j d) := by
  obtain ⟨-, -, -, -, -, -, e0, e1, e2, -⟩ := idx_facts t
  show V m c main_v5 (((cfg0.win 1).blk t).view.emb (ix3 (0 : Fin 1) j d)) = V m c main_v5 (ix3 (hd t) j d)
  refine congrArg (V m c main_v5) (funext fun a => Fin.ext ?_)
  match a with
  | ⟨0, _⟩ => show win0_1.index t (0 : Fin 3) * 1 + 1 * 0 = win0_4.index t (0 : Fin 3); omega
  | ⟨1, _⟩ => show win0_1.index t (1 : Fin 3) * 2048 + 1 * j.val = j.val; omega
  | ⟨2, _⟩ => show win0_1.index t (2 : Fin 3) * 64 + 1 * d.val = d.val; omega

theorem vblk_apply (c : Dev nD) (t : Fin cfg0.N) (j : Fin 2048) (d : Fin 64) :
    vblk m c t (ix3 (0 : Fin 1) j d) = (V m c main_v8 : S32x2048x64.Idx → EReal) (ix3 (hd t) j d) := by
  obtain ⟨-, -, -, -, -, -, -, -, -, e0, e1, e2, -⟩ := idx_facts t
  show V m c main_v8 (((cfg0.win 2).blk t).view.emb (ix3 (0 : Fin 1) j d)) = V m c main_v8 (ix3 (hd t) j d)
  refine congrArg (V m c main_v8) (funext fun a => Fin.ext ?_)
  match a with
  | ⟨0, _⟩ => show win0_2.index t (0 : Fin 3) * 1 + 1 * 0 = win0_4.index t (0 : Fin 3); omega
  | ⟨1, _⟩ => show win0_2.index t (1 : Fin 3) * 2048 + 1 * j.val = j.val; omega
  | ⟨2, _⟩ => show win0_2.index t (2 : Fin 3) * 64 + 1 * d.val = d.val; omega

theorem wblk_apply (c : Dev nD) (t : Fin cfg0.N) (r : Fin 512) (j : Fin 2048) :
    wblk m c t (ix4 (0 : Fin 1) (0 : Fin 1) r j) = wArg m c (ix4 (0 : Fin 1) (0 : Fin 1) (row t r) j) := by
  obtain ⟨-, -, -, -, -, -, -, -, -, -, -, -, e0, e1, e2, e3, -⟩ := idx_facts t
  rw [show wArg m c = V m c main_arg3 from (V_main_arg3 m c).symm]
  show V m c main_arg3 (((cfg0.win 3).blk t).view.emb (ix4 (0 : Fin 1) (0 : Fin 1) r j)) = V m c main_arg3 (ix4 (0 : Fin 1) (0 : Fin 1) (row t r) j)
  refine congrArg (V m c main_arg3) (funext fun a => Fin.ext ?_)
  match a with
  | ⟨0, _⟩ => show win0_3.index t (0 : Fin 4) * 1 + 1 * 0 = 0; omega
  | ⟨1, _⟩ => show win0_3.index t (1 : Fin 4) * 1 + 1 * 0 = 0; omega
  | ⟨2, _⟩ => show win0_3.index t (2 : Fin 4) * 512 + 1 * r.val = win0_4.index t (1 : Fin 3) * 512 + r.val; omega
  | ⟨3, _⟩ => show win0_3.index t (3 : Fin 4) * 2048 + 1 * j.val = j.val; omega

theorem real_qblk (c : Dev nD) (t : Fin cfg0.N) (hq : ∀ i, IsReal (qArg m c i)) (y : S1x512x64.Idx) : IsReal (qblk m c t y) :=
  real_Vq m c hq (((cfg0.win 0).blk t).view.emb y)
theorem real_kblk (c : Dev nD) (t : Fin cfg0.N) (hk : ∀ i, IsReal (kArg m c i)) (y : S1x2048x64.Idx) : IsReal (kblk m c t y) :=
  real_Vk m c hk (((cfg0.win 1).blk t).view.emb y)

/-! ## What a point computes -/

/-- Entry `(r, j)` of the softmax matrix point `t` computes is the reference's attention matrix at the point's head,
    row `r` of its query tile, key `j`. -/
theorem attn_entry (c : Dev nD) (t : Fin cfg0.N) (hq : ∀ i, IsReal (qArg m c i)) (hk : ∀ i, IsReal (kArg m c i)) (r : Fin 512) (j : Fin 2048) :
    k0_pay4 (F := Ideal) (qblk m c t) (kblk m c t) (wblk m c t) (ix2 r j)
      = Cert.ReferenceIdeal.Read.val_main_v23 (F := Ideal) (qArg m c) (kArg m c) (wArg m c) (ix4 (bat (hd t)) (hea (hd t)) (row t r) j) := by
  refine (pay4_apply (qblk m c t) (kblk m c t) (wblk m c t) (real_qblk m c t hq) (real_kblk m c t hk) r j).trans ?_
  refine Eq.trans ?_ (Cert.ReferenceIdeal.Rows.attn_apply (qArg m c) (kArg m c) (wArg m c) (bat (hd t)) (hea (hd t)) (row t r) j).symm
  refine congrArg (fun s => softmax s j) (funext fun j' => ?_)
  have e1 : (fun d => qblk m c t (ix3 (0 : Fin 1) r d)) = fun d => Cert.ReferenceIdeal.Read.val_main_v1 (F := Ideal) (qArg m c) (ix4 (bat (hd t)) (hea (hd t)) (row t r) d) :=
    funext fun d => (qblk_apply m c t r d).trans (Vq_apply m c (hd t) (row t r) d)
  have e2 : (fun d => kblk m c t (ix3 (0 : Fin 1) j' d)) = fun d => Cert.ReferenceIdeal.Read.val_main_v3 (F := Ideal) (kArg m c) (ix4 (bat (hd t)) (hea (hd t)) j' d) :=
    funext fun d => (kblk_apply m c t j' d).trans (Vk_apply m c (hd t) j' d)
  rw [e1, e2, wblk_apply m c t r j']

/-! ## The two arrays after the region -/

theorem hcastA : Cert.ReferenceIdeal.S2x16x2048x2048.ShapeCasts S32x2048x2048 := by decide
theorem hcastO : Cert.ReferenceIdeal.S2x16x2048x64.ShapeCasts S32x2048x64 := by decide

/-- The reference's attention matrix with batch and head merged. -/
def attnArr (c : Dev nD) : S32x2048x2048.Idx → EReal :=
  shapeCast S32x2048x2048 (Cert.ReferenceIdeal.Read.val_main_v23 (F := Ideal) (qArg m c) (kArg m c) (wArg m c)) hcastA
/-- The reference's attention-times-values array with batch and head merged. -/
def outArr (c : Dev nD) : S32x2048x64.Idx → EReal :=
  shapeCast S32x2048x64 (Cert.ReferenceIdeal.Read.val_main_v24 (F := Ideal) (qArg m c) (kArg m c) (vArg m c) (wArg m c)) hcastO

theorem attnArr_apply (c : Dev nD) (p : Fin 32) (i j : Fin 2048) :
    attnArr m c (ix3 p i j) = Cert.ReferenceIdeal.Read.val_main_v23 (F := Ideal) (qArg m c) (kArg m c) (wArg m c) (ix4 (bat p) (hea p) i j) := by
  unfold attnArr
  refine shapeCast_apply _ _ _ _ ?_
  rw [Shape.rowMajor_val_four, Shape.rowMajor_val_three]
  show ((p.val / 16 * 16 + p.val % 16) * 2048 + i.val) * 2048 + j.val = (p.val * 2048 + i.val) * 2048 + j.val
  omega

theorem outArr_apply (c : Dev nD) (p : Fin 32) (i : Fin 2048) (d : Fin 64) :
    outArr m c (ix3 p i d) = Cert.ReferenceIdeal.Read.val_main_v24 (F := Ideal) (qArg m c) (kArg m c) (vArg m c) (wArg m c) (ix4 (bat p) (hea p) i d) := by
  unfold outArr
  refine shapeCast_apply _ _ _ _ ?_
  rw [Shape.rowMajor_val_four, Shape.rowMajor_val_three]
  show ((p.val / 16 * 16 + p.val % 16) * 2048 + i.val) * 64 + d.val = (p.val * 2048 + i.val) * 64 + d.val
  omega

end Cert.KernelIdeal.Arr

end
-- ==== Proof.Flushed.lean ====
/-
  What a point writes back.  The attention block a point writes back is the body's softmax block, which entry by
  entry is the reference's attention matrix at the point's head and the rows of its query tile: the block at the
  point's place of the merged attention matrix.  The output block likewise: each entry is the sum over the keys of the
  attention row times the value column of the point's head.
-/
import proofs.«429580_j65481071398925_3_alg».proof.Proof.Blocks

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Attention Cert.KernelIdeal.Block
open Idealize.ShloMosaic.Pipeline (Dat)

variable (m : (ℓ : Loc nD τ sig) → Buf (Elt Ideal) ℓ)

/-- A block of an uncut window is written back whole. -/
theorem cut4 (t : Fin cfg0.N) (X : Vec Ideal S1x512x2048 .f32) (r : Fin 512) (j : Fin 2048) :
    (cfg0.win 4).cut (grid0.coords t) X (ix3 (0 : Fin 1) r j) = X (ix3 (0 : Fin 1) r j) := rfl
theorem cut5 (t : Fin cfg0.N) (X : Vec Ideal S1x512x64 .f32) (r : Fin 512) (d : Fin 64) :
    (cfg0.win 5).cut (grid0.coords t) X (ix3 (0 : Fin 1) r d) = X (ix3 (0 : Fin 1) r d) := rfl

/-- Entry `(0, r, j)` of point `t`'s block of an array is the array's entry at the point's head, row `r` of its query
    tile, column `j`. -/
theorem read4 (t : Fin cfg0.N) (G : S32x2048x2048.Idx → EReal) (r : Fin 512) (j : Fin 2048) :
    ((cfg0.win 4).blk t).view.read (Elt Ideal) G (ix3 (0 : Fin 1) r j) = G (ix3 (hd t) (row t r) j) := by
  obtain ⟨-, -, e2, -⟩ := idx_facts t
  show G (((cfg0.win 4).blk t).view.emb (ix3 (0 : Fin 1) r j)) = G (ix3 (hd t) (row t r) j)
  refine congrArg G (funext fun a => Fin.ext ?_)
  match a with
  | ⟨0, _⟩ => show win0_4.index t (0 : Fin 3) * 1 + 1 * 0 = win0_4.index t (0 : Fin 3); omega
  | ⟨1, _⟩ => show win0_4.index t (1 : Fin 3) * 512 + 1 * r.val = win0_4.index t (1 : Fin 3) * 512 + r.val; omega
  | ⟨2, _⟩ => show win0_4.index t (2 : Fin 3) * 2048 + 1 * j.val = j.val; omega

theorem read5 (t : Fin cfg0.N) (G : S32x2048x64.Idx → EReal) (r : Fin 512) (d : Fin 64) :
    ((cfg0.win 5).blk t).view.read (Elt Ideal) G (ix3 (0 : Fin 1) r d) = G (ix3 (hd t) (row t r) d) := by
  obtain ⟨-, -, -, -, -, -, -, -, -, -, -, -, -, -, -, -, e0, e1, e2⟩ := idx_facts t
  show G (((cfg0.win 5).blk t).view.emb (ix3 (0 : Fin 1) r d)) = G (ix3 (hd t) (row t r) d)
  refine congrArg G (funext fun a => Fin.ext ?_)
  match a with
  | ⟨0, _⟩ => show win0_5.index t (0 : Fin 3) * 1 + 1 * 0 = win0_4.index t (0 : Fin 3); omega
  | ⟨1, _⟩ => show win0_5.index t (1 : Fin 3) * 512 + 1 * r.val = win0_4.index t (1 : Fin 3) * 512 + r.val; omega
  | ⟨2, _⟩ => show win0_5.index t (2 : Fin 3) * 64 + 1 * d.val = d.val; omega

/-- Entry `(r, d)` of the output block point `t` computes is the reference's attention-times-values array at the
    point's head, row `r` of its query tile, column `d`. -/
theorem out_entry (c : Dev nD) (t : Fin cfg0.N) (hq : ∀ i, IsReal (qArg m c i)) (hk : ∀ i, IsReal (kArg m c i)) (r : Fin 512) (d : Fin 64) :
    k0_pay2 (F := Ideal) (k0_pay3 (F := Ideal) (vblk m c t)) (k0_pay4 (F := Ideal) (qblk m c t) (kblk m c t) (wblk m c t)) (ix3 (0 : Fin 1) r d)
      = Cert.ReferenceIdeal.Read.val_main_v24 (F := Ideal) (qArg m c) (kArg m c) (vArg m c) (wArg m c) (ix4 (bat (hd t)) (hea (hd t)) (row t r) d) := by
  refine (pay2_apply (k0_pay3 (F := Ideal) (vblk m c t)) (k0_pay4 (F := Ideal) (qblk m c t) (kblk m c t) (wblk m c t)) r d).trans ?_
  refine Eq.trans ?_ (Cert.ReferenceIdeal.Rows.out_apply (qArg m c) (kArg m c) (vArg m c) (wArg m c) (bat (hd t)) (hea (hd t)) (row t r) d).symm
  refine Finset.sum_congr rfl fun j _ => ?_
  refine congrArg₂ (· * ·) (attn_entry m c t hq hk r j) ?_
  exact (pay3_apply (vblk m c t) j d).trans ((vblk_apply m c t j d).trans (Vv_apply m c (hd t) j d))

/-- What point `t` writes back to the attention array is its block of the merged attention matrix. -/
theorem flushed4_eq (c : Dev nD) (t : Fin cfg0.N) (hq : ∀ i, IsReal (qArg m c i)) (hk : ∀ i, IsReal (kArg m c i)) :
    (dats m 0 c).flushed 4 t = ((cfg0.win 4).blk t).view.read (Elt Ideal) (attnArr m c) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3, View.ld_unit_zero (S := S1x1x512x2048) hz4]
  funext y
  obtain ⟨a, r, j, rfl⟩ : ∃ (a : Fin 1) (r : Fin 512) (j : Fin 2048), y = ix3 a r j := ⟨y 0, y 1, y 2, eq_ix3 y⟩
  obtain rfl : a = 0 := Subsingleton.elim _ _
  refine (cut4 t _ r j).trans ?_
  refine Eq.trans ?_ (read4 t (attnArr m c) r j).symm
  refine Eq.trans ?_ (attnArr_apply m c (hd t) (row t r) j).symm
  exact (pay1_apply _ r j).trans (attn_entry m c t hq hk r j)

/-- What point `t` writes back to the output array is its block of the merged attention-times-values array. -/
theorem flushed5_eq (c : Dev nD) (t : Fin cfg0.N) (hq : ∀ i, IsReal (qArg m c i)) (hk : ∀ i, IsReal (kArg m c i)) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero hz3]
  simp only [View.ld_unit_zero (S := S1x512x64) hz3, View.ld_unit_zero (S := S1x2048x64) hz3, View.ld_unit_zero (S := S1x1x512x2048) hz4]
  funext y
  obtain ⟨a, r, d, rfl⟩ : ∃ (a : Fin 1) (r : Fin 512) (d : Fin 64), y = ix3 a r d := ⟨y 0, y 1, y 2, eq_ix3 y⟩
  obtain rfl : a = 0 := Subsingleton.elim _ _
  refine (cut5 t _ r d).trans ?_
  refine Eq.trans ?_ (read5 t (outArr m c) r d).symm
  refine Eq.trans ?_ (outArr_apply m c (hd t) (row t r) d).symm
  exact out_entry m c t hq hk r d

end Cert.KernelIdeal.Arr

end
-- ==== Proof.Cover.lean ====
/-
  The output blocks tile their arrays.  Index `(p, i, ·)` of either output array lies in the block of the grid point
  whose head is `p` and whose query tile is `i / 512`, and every such pair is some point's.
-/
import proofs.«429580_j65481071398925_3_alg».proof.Proof.Blocks

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Attention Cert.KernelIdeal.Block
open Idealize.ShloMosaic.Pipeline (Dat)

variable (m : (ℓ : Loc nD τ sig) → Buf (Elt Ideal) ℓ)

/-! ## The blocks tile the arrays -/

theorem mem_blk4 (t : Fin cfg0.N) (i : S32x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v9_0).slice (win0_4.rect t)).set ↔ _
  rw [View.set_slice_whole, Rect.mem_set_unit]
  exact Iff.rfl

theorem mem_blk5 (t : Fin cfg0.N) (i : S32x2048x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v9_1).slice (win0_5.rect t)).set ↔ _
  rw [View.set_slice_whole, Rect.mem_set_unit]
  exact Iff.rfl

/-- Every index of the attention array lies in the block of the point at its head and its row's tile. -/
theorem cover4 (i : S32x2048x2048.Idx) : ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 2048 := (i 2).isLt
  obtain ⟨t, q0, q1⟩ := idx_onto ⟨(i 0).val, h0⟩ ⟨(i 1).val / 512, by omega⟩
  obtain ⟨-, -, q2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; have : win0_4.index t (0 : Fin 3) = (i 0).val := q0; omega
  | ⟨1, _⟩ => show win0_4.index t (1 : Fin 3) * 512 ≤ (i 1).val ∧ (i 1).val < win0_4.index t (1 : Fin 3) * 512 + 512; have : win0_4.index t (1 : Fin 3) = (i 1).val / 512 := q1; omega
  | ⟨2, _⟩ => show win0_4.index t (2 : Fin 3) * 2048 ≤ (i 2).val ∧ (i 2).val < win0_4.index t (2 : Fin 3) * 2048 + 2048; omega

theorem cover5 (i : S32x2048x64.Idx) : ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 64 := (i 2).isLt
  obtain ⟨t, q0, q1⟩ := idx_onto ⟨(i 0).val, h0⟩ ⟨(i 1).val / 512, by omega⟩
  obtain ⟨-, -, -, -, -, -, -, -, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; have : win0_4.index t (0 : Fin 3) = (i 0).val := q0; omega
  | ⟨1, _⟩ => show win0_5.index t (1 : Fin 3) * 512 ≤ (i 1).val ∧ (i 1).val < win0_5.index t (1 : Fin 3) * 512 + 512; have : win0_4.index t (1 : Fin 3) = (i 1).val / 512 := q1; omega
  | ⟨2, _⟩ => show win0_5.index t (2 : Fin 3) * 64 ≤ (i 2).val ∧ (i 2).val < win0_5.index t (2 : Fin 3) * 64 + 64; omega

end Cert.KernelIdeal.Arr

end
-- ==== Proof.Tail.lean ====
/-
  The two results.  The blocks tile the two output arrays, so after the region the attention array is the reference's
  attention matrix with batch and head merged and the output array its attention-times-values array merged the same
  way.  After the region the program splits the merged axis again: the attention result is the attention matrix
  itself, and the output result is the attention-times-values array with its two middle axes transposed and the head
  and feature axes merged, which is how the reference forms its output.
-/
import proofs.«429580_j65481071398925_3_alg».proof.Proof.Flushed
import proofs.«429580_j65481071398925_3_alg».proof.Proof.Cover

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Attention Cert.KernelIdeal.Block
open Idealize.ShloMosaic.Pipeline (Dat)

variable (m : (ℓ : Loc nD τ sig) → Buf (Elt Ideal) ℓ)

/-- After the region the attention array is the merged attention matrix, and the output array the merged
    attention-times-values array. -/
theorem final4 (c : Dev nD) (hq : ∀ i, IsReal (qArg m c i)) (hk : ∀ i, IsReal (kArg m c i)) :
    (dats m 0 c).arrAt 4 cfg0.N = attnArr m c :=
  (dats m 0 c).arrAt_eq_of_cover 4 (attnArr m c) (fun t _ => flushed4_eq m c t hq hk) cover4

theorem final5 (c : Dev nD) (hq : ∀ i, IsReal (qArg m c i)) (hk : ∀ i, IsReal (kArg m c i)) :
    (dats m 0 c).arrAt 5 cfg0.N = outArr m c :=
  (dats m 0 c).arrAt_eq_of_cover 5 (outArr m c) (fun t _ => flushed5_eq m c t hq hk) cover5

/-- The program's attention result is the reference's attention matrix. -/
theorem tail_attn (c : Dev nD) (hq : ∀ i, IsReal (qArg m c i)) (hk : ∀ i, IsReal (kArg m c i)) :
    Pipeline.afterTail₀ cfgs (dats m) 0 (V0 m) [hostOps1] c main_v13
      = Cert.ReferenceIdeal.Read.val_main_v23 (F := Ideal) (qArg m c) (kArg m c) (wArg m c) := by
  unfold Pipeline.afterTail₀
  show StableHlo.after hostOps1 _ (Proc.devRef .tc main_v13) = _
  after_results
  have hA : Pipeline.withArrays (cfgs 0).spec c (V0 m c) (fun w => (dats m 0 c).arrAt w (cfgs 0).N) (Proc.devRef .tc main_v9_0) = attnArr m c :=
    (Pipeline.withArrays_arr spec0 launch0.win.arr_inj c _ _ 4).trans (final4 m c hq hk)
  show shapeCast S2x16x2048x2048 (Pipeline.withArrays (cfgs 0).spec c (V0 m c) (fun w => (dats m 0 c).arrAt w (cfgs 0).N) (Proc.devRef .tc main_v9_0))
      shapeCasts_S32x2048x2048_S2x16x2048x2048 = _
  rw [hA]
  unfold attnArr
  exact shapeCast_shapeCast _ _ _

/-- The program's output result is the reference's output. -/
theorem tail_out (c : Dev nD) (hq : ∀ i, IsReal (qArg m c i)) (hk : ∀ i, IsReal (kArg m c i)) :
    Pipeline.afterTail₀ cfgs (dats m) 0 (V0 m) [hostOps1] c main_v12
      = Cert.ReferenceIdeal.Read.val_main_v26 (F := Ideal) (qArg m c) (kArg m c) (vArg m c) (wArg m c) := by
  unfold Pipeline.afterTail₀
  show StableHlo.after hostOps1 _ (Proc.devRef .tc main_v12) = _
  after_results
  have hA : Pipeline.withArrays (cfgs 0).spec c (V0 m c) (fun w => (dats m 0 c).arrAt w (cfgs 0).N) (Proc.devRef .tc main_v9_1) = outArr m c :=
    (Pipeline.withArrays_arr spec0 launch0.win.arr_inj c _ _ 5).trans (final5 m c hq hk)
  show shapeCast S2x2048x1024 (transpose S2x2048x16x64 [0, 2, 1, 3]
      (shapeCast S2x16x2048x64 (Pipeline.withArrays (cfgs 0).spec c (V0 m c) (fun w => (dats m 0 c).arrAt w (cfgs 0).N) (Proc.devRef .tc main_v9_1))
        shapeCasts_S32x2048x64_S2x16x2048x64)
      transposes_S2x16x2048x64_S2x2048x16x64_0_2_1_3) shapeCasts_S2x2048x16x64_S2x2048x1024 = _
  rw [hA]
  unfold outArr
  refine (congrArg (fun x => shapeCast S2x2048x1024 (transpose S2x2048x16x64 [0, 2, 1, 3] x transposes_S2x16x2048x64_S2x2048x16x64_0_2_1_3)
      shapeCasts_S2x2048x16x64_S2x2048x1024)
    (shapeCast_shapeCast (Cert.ReferenceIdeal.Read.val_main_v24 (F := Ideal) (qArg m c) (kArg m c) (vArg m c) (wArg m c)) hcastO shapeCasts_S32x2048x64_S2x16x2048x64)).trans ?_
  rfl

end Cert.KernelIdeal.Arr

end
-- ==== Proof.lean ====
/-
  Masked softmax attention over sixteen heads: the kernel against its reference, over the extended reals.

  Both programs split the query, key and value arrays into heads.  For each head and query row both form the scores
  against every key row (the dot product over the head's sixty-four features, scaled by one eighth, replaced by a
  large negative fill where the mask word is zero), take the row's softmax, return that attention matrix, and return
  its product with the head's value rows, laid back out with the heads side by side.

  The kernel runs one grid point per (query tile of 512 rows, head).  It forms the scores in three passes over a
  two-term split of each query and key entry, the second term being the entry less itself: for real entries that term
  is zero and the three passes add to the plain dot product, which is where the precondition (every float input is
  finite) is used.  It multiplies by one eighth where the reference divides by the square root of sixty-four, and
  it narrows the attention block and the value block before the second product, which changes nothing at this
  instance.  Each point's two output blocks are therefore the blocks, at the point's head and query tile, of the
  reference's attention matrix and attention-times-values array with batch and head merged; the blocks tile those
  arrays; and the reshapes and the transposition after the region are the ones the reference applies.

  The kernel's and its idealization's frames are the generated ones; the reference's frame is its generated run with
  the results dropped.  The idealization's two recorded rewrites (a narrowing followed by a widening replaced by the
  value itself, once for the query block and once for the key block) are each the rule's statement.
-/
import proofs.«429580_j65481071398925_3_alg».proof.Defs
import proofs.«429580_j65481071398925_3_alg».proof.Proof.Gen.Kernel
import proofs.«429580_j65481071398925_3_alg».proof.Proof.Gen.Kernel.Skeleton
import proofs.«429580_j65481071398925_3_alg».proof.Proof.Gen.Kernel.Launch
import proofs.«429580_j65481071398925_3_alg».proof.Proof.Gen.Kernel.Points
import proofs.«429580_j65481071398925_3_alg».proof.Proof.Gen.Kernel.Frame
import proofs.«429580_j65481071398925_3_alg».proof.Proof.Gen.KernelIdeal
import proofs.«429580_j65481071398925_3_alg».proof.Proof.Gen.KernelIdeal.Skeleton
import proofs.«429580_j65481071398925_3_alg».proof.Proof.Gen.KernelIdeal.Launch
import proofs.«429580_j65481071398925_3_alg».proof.Proof.Gen.KernelIdeal.Points
import proofs.«429580_j65481071398925_3_alg».proof.Proof.Gen.KernelIdeal.Frame
import proofs.«429580_j65481071398925_3_alg».proof.Proof.Gen.ReferenceIdeal
import proofs.«429580_j65481071398925_3_alg».proof.Proof.Gen.Pre_finite_inputs
import proofs.«429580_j65481071398925_3_alg».proof.Proof.Gen.ReferenceIdeal.Run
import proofs.«429580_j65481071398925_3_alg».proof.Proof.Gen.ReferenceIdeal.Read
import proofs.«429580_j65481071398925_3_alg».proof.Proof.Finite
import proofs.«429580_j65481071398925_3_alg».proof.Proof.Tail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two recorded rewrites: at the ideal instance narrowing and widening back is the identity. -/
theorem preserves : Cert.preserves_Kernel_KernelIdeal :=
  ⟨IdealRules.truncf_extf.statement Cert.KernelIdeal.S512x64 .f32 .bf16,
    IdealRules.truncf_extf.statement Cert.KernelIdeal.S2048x64 .f32 .bf16⟩

/-- Both programs end with the reference's output and attention matrix of the arguments. -/
theorem algebraic : Cert.algebraic_KernelIdeal_ReferenceIdeal := by
  intro m ρ m' ρ' hpre hagree
  refine ⟨fun c => Cert.ReferenceIdeal.Read.val_main_v26 (F := Ideal) (Cert.KernelIdeal.Arr.qArg m c) (Cert.KernelIdeal.Arr.kArg m c) (Cert.KernelIdeal.Arr.vArg m c) (Cert.KernelIdeal.Arr.wArg m c),
    fun c => Cert.ReferenceIdeal.Read.val_main_v23 (F := Ideal) (Cert.KernelIdeal.Arr.qArg m c) (Cert.KernelIdeal.Arr.kArg m c) (Cert.KernelIdeal.Arr.wArg m c), ?_, ?_⟩
  · refine (θ_run Cert.KernelIdeal.defs _ _).mono (fun r h c => ?_) (Cert.KernelIdeal.Gen.run_main m ρ)
    obtain ⟨hq, hk⟩ := Cert.KernelIdeal.Finite.real_of_pre m hpre c
    exact ⟨((h c).2 Cert.KernelIdeal.main_v12 (Pipeline.mem_restRefs_of Cert.KernelIdeal.main_v12 (by decide) (by decide))).trans (Cert.KernelIdeal.Arr.tail_out m c hq hk),
      ((h c).2 Cert.KernelIdeal.main_v13 (Pipeline.mem_restRefs_of Cert.KernelIdeal.main_v13 (by decide) (by decide))).trans (Cert.KernelIdeal.Arr.tail_attn m c hq hk),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).1 3).trans (((Cert.KernelIdeal.Gen.dats m 0 c).arrAt_in 3 rfl _).trans ((Cert.KernelIdeal.Gen.A_eq m c 3).trans (Cert.KernelIdeal.Gen.V_main_arg3 m c)))⟩
  · refine (θ_run Cert.ReferenceIdeal.defs _ _).mono (fun r h c => ?_) (Cert.ReferenceIdeal.Value.run (F := Ideal) m' ρ')
    obtain ⟨a0, a1, a2, a3⟩ := hagree c
    refine ⟨(h c).1.trans ?_, (h c).2.1.trans ?_, (h c).2.2⟩
    · rw [Cert.ReferenceIdeal.Read.val_main_v26_eq, a0, a1, a2, a3]
    · rw [Cert.ReferenceIdeal.Read.val_main_v23_eq, a0, a1, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
